-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn_part1 {F : FTy → Type} [FloatOps F] (main_arg4 : FVec F S2x16x2048x64 .f32) (main_v13 : IVec S_ 1) (main_v16 : IVec S2x16x2048x64 1) : IVec S_ 1 :=
  let main_c_5 : IVec S_ 1 := constantI S_ 1 1#1
  let main_v17 : IVec S_ 1 := (fun x v => Host.reduce IntOp.andi x v reducesTo_S2x16x2048x64_S_d0_1_2_3 h_S_) main_v16 main_c_5
  let main_v18 : IVec S_ 1 := andi main_v13 main_v17
  let main_v19 : FVec F S2x16x2048x64 .f32 := Host.absf main_arg4
  let main_cst_6 : FVec F S_ .f32 := constant S_ .f32 0x7F800000#32
  let main_v20 : FVec F S2x16x2048x64 .f32 := broadcastInDim S2x16x2048x64 ![] bcast_S_S2x16x2048x64 main_cst_6
  let main_v21 : IVec S2x16x2048x64 1 := cmpf .olt main_v19 main_v20
  let main_c_7 : IVec S_ 1 := constantI S_ 1 1#1
  let main_v22 : IVec S_ 1 := (fun x v => Host.reduce IntOp.andi x v reducesTo_S2x16x2048x64_S_d0_1_2_3 h_S_) main_v21 main_c_7
  let main_v23 : IVec S_ 1 := andi main_v18 main_v22
  main_v23

def fn {F : FTy → Type} [FloatOps F] (main_arg0 : FVec F S2x16x2048x64 .f32) (main_arg1 : FVec F S2x16x2048x64 .f32) (main_arg2 : FVec F S2x16x2048x64 .f32) (main_arg3 : FVec F S2x16x2048x64 .f32) (main_arg4 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x64 .f32 := Host.absf main_arg3
  let main_cst_4 : FVec F S_ .f32 := constant S_ .f32 0x7F800000#32
  let main_v15 : FVec F S2x16x2048x64 .f32 := broadcastInDim S2x16x2048x64 ![] bcast_S_S2x16x2048x64 main_cst_4
  let main_v16 : IVec S2x16x2048x64 1 := cmpf .olt main_v14 main_v15
  fn_part1 (F := F) main_arg4 main_v13 main_v16
-- ==== Kernel.lean ====
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S64x2048 : Shape := ⟨2, ![64, 2048]⟩
abbrev S2048x64 : Shape := ⟨2, ![2048, 64]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x64, .f32⟩
  | .hbm, ⟨5, _⟩ => ⟨S32x2048x64, .f32⟩
  | .hbm, ⟨6, _⟩ => ⟨S32x2048x64, .f32⟩
  | .hbm, ⟨7, _⟩ => ⟨S32x2048x64, .f32⟩
  | .hbm, ⟨8, _⟩ => ⟨S32x2048x64, .f32⟩
  | .hbm, ⟨9, _⟩ => ⟨S32x2048x64, .f32⟩
  | .hbm, ⟨10, _⟩ => ⟨S32x2048x64, .f32⟩
  | .hbm, ⟨11, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x64, .f32⟩
  | .local _ .vmem, ⟨9, _⟩ => ⟨S1x2048x64, .f32⟩
  | .local _ .vmem, ⟨10, _⟩ => ⟨S1x1024x64, .f32⟩
  | .local _ .vmem, ⟨11, _⟩ => ⟨S1x1024x64, .f32⟩
  | .local _ .vmem, ⟨12, _⟩ => ⟨S64x2048, .bf16⟩
  | .local _ .vmem, ⟨13, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  transposes_S2048x64_p1_0_S64x2048 : S2048x64.Transposes [1, 0] S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S64x2048_S64x2048_0_0 : (Rect.unit (s := S64x2048) ![0, 0] S64x2048.size inb_S64x2048_S64x2048_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S32x2048x64.size a
  hwx0_3 : ∀ i : grid0.Coords, EltTy.bits .f32 = 32 ∨ (Rect.block (s := S32x2048x64) S1x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S32x2048x64.size a
  hwx0_4 : ∀ i : grid0.Coords, EltTy.bits .f32 = 32 ∨ (Rect.block (s := S32x2048x64) S1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S32x2048x64.size a
  hwx0_5 : ∀ i : grid0.Coords, EltTy.bits .f32 = 32 ∨ (Rect.block (s := S32x2048x64) S1x1024x64.size (cc0_transform_5 i) (hinb0_5 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x64, .f32⟩
  | .hbm, ⟨5, _⟩ => ⟨S_, .f32⟩
  | .hbm, ⟨6, _⟩ => ⟨S2x16x2048x64, .f32⟩
  | .hbm, ⟨7, _⟩ => ⟨S2x16x2048x64, .f32⟩
  | .hbm, ⟨8, _⟩ => ⟨S_, .f32⟩
  | .hbm, ⟨9, _⟩ => ⟨S2x16x2048x64, .f32⟩
  | .hbm, ⟨10, _⟩ => ⟨S2x16x2048x64, .f32⟩
  | .hbm, ⟨11, _⟩ => ⟨S2x16x2048x64, .f32⟩
  | .hbm, ⟨12, _⟩ => ⟨S_, .f32⟩
  | .hbm, ⟨13, _⟩ => ⟨S2x16x2048x64, .f32⟩
  | .hbm, ⟨14, _⟩ => ⟨S2x16x2048x64, .f32⟩
  | .hbm, ⟨15, _⟩ => ⟨S_, .f32⟩
  | .hbm, ⟨16, _⟩ => ⟨S2x16x2048x64, .f32⟩
  | .hbm, ⟨17, _⟩ => ⟨S2x16x2048x64, .f32⟩
  | .hbm, ⟨18, _⟩ => ⟨S2x16x2048x64, .f32⟩
  | .hbm, ⟨19, _⟩ => ⟨S_, .f32⟩
  | .hbm, ⟨20, _⟩ => ⟨S2x16x2048x64, .f32⟩
  | .hbm, ⟨21, _⟩ => ⟨S2x16x2048x64, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one grid point of the attention kernel leaves behind, as values.

  At the first query tile of a (batch, head) slice the body builds the key cache (the dequantised keys, transposed)
  and the value cache from the four code blocks, stores both into the two scratch buffers, reads them back and
  computes the output tile from the query block and the two caches. At the second query tile it stores nothing into
  the scratch buffers and computes the output tile from the query block and whatever the scratch buffers held.
  Each buffer is written by one store that covers it whole, so what it holds afterwards is that store's value.
-/
import proofs.«413395_j53171695125155_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- First query tile: the key scratch ends at the key cache built from the two key code blocks. -/
theorem keyCache_first (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S64x2048 .bf16) (harg8 : arg8.IsWhole) (arg9 : Memref sig .tc .vmem S2048x64 .bf16) (harg9 : arg9.IsWhole) (hc0 : cond0_0 i) (x0 : Vec F S1x1024x64 .f32) (x1 : Vec F S1x2048x64 .f32) (x2 : Vec F S1x2048x64 .f32) (x3 : Vec F S1x2048x64 .f32) (x4 : Vec F S1x2048x64 .f32) :
    sout0_A_0 c i arg2 harg2 arg3 harg3 arg4 harg4 arg5 harg5 arg6 harg6 arg7 harg7 arg8 harg8 arg9 harg9 hc0 x0 x1 x2 x3 x4 = k0_pay1 x1 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero off2]
  simp only [View.readAt_eq_ld, harg3.read_unread, harg4.read_unread, View.ld_unit_zero (S := S1x2048x64) off3]

/-- First query tile: the value scratch ends at the value cache built from the two value code blocks. -/
theorem valCache_first (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S64x2048 .bf16) (harg8 : arg8.IsWhole) (arg9 : Memref sig .tc .vmem S2048x64 .bf16) (harg9 : arg9.IsWhole) (hc0 : cond0_0 i) (x0 : Vec F S1x1024x64 .f32) (x1 : Vec F S1x2048x64 .f32) (x2 : Vec F S1x2048x64 .f32) (x3 : Vec F S1x2048x64 .f32) (x4 : Vec F S1x2048x64 .f32) :
    sout0_A_1 c i arg2 harg2 arg3 harg3 arg4 harg4 arg5 harg5 arg6 harg6 arg7 harg7 arg8 harg8 arg9 harg9 hc0 x0 x1 x2 x3 x4 = k0_pay2 x3 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero off2]
  simp only [View.readAt_eq_ld, harg5.read_unread, harg6.read_unread, View.ld_unit_zero (S := S1x2048x64) off3]

/-- First query tile: the output tile is computed from the query block and the two caches just built. -/
theorem out_first (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S64x2048 .bf16) (harg8 : arg8.IsWhole) (arg9 : Memref sig .tc .vmem S2048x64 .bf16) (harg9 : arg9.IsWhole) (hc0 : cond0_0 i) (x0 : Vec F S1x1024x64 .f32) (x1 : Vec F S1x2048x64 .f32) (x2 : Vec F S1x2048x64 .f32) (x3 : Vec F S1x2048x64 .f32) (x4 : Vec F S1x2048x64 .f32) :
    out0_A_5 c i arg2 harg2 arg3 harg3 arg4 harg4 arg5 harg5 arg6 harg6 arg7 harg7 arg8 harg8 arg9 harg9 hc0 x0 x1 x2 x3 x4 = k0_pay3 x0 (k0_pay1 x1 x2) (k0_pay2 x3 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero off3]
  simp only [View.readAt_eq_ld, harg2.read_unread, harg3.read_unread, harg4.read_unread, harg5.read_unread, harg6.read_unread,
    View.ld_unit_zero (S := S1x1024x64) off3, View.ld_unit_zero (S := S1x2048x64) off3,
    View.readCov_unit_zero (S := S64x2048) _ off2, View.readCov_unit_zero (S := S2048x64) _ off2]

/-- Second query tile: the output tile is computed from the query block and what the scratch buffers held. -/
theorem out_second (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S64x2048 .bf16) (harg8 : arg8.IsWhole) (arg9 : Memref sig .tc .vmem S2048x64 .bf16) (harg9 : arg9.IsWhole) (hc0 : ¬cond0_0 i) (x0 : Vec F S1x1024x64 .f32) (x1 : Vec F S1x2048x64 .f32) (x2 : Vec F S1x2048x64 .f32) (x3 : Vec F S1x2048x64 .f32) (x4 : Vec F S1x2048x64 .f32) (xs0 : Vec F S64x2048 .bf16) (xs1 : Vec F S2048x64 .bf16) :
    out0_B_5 c i arg2 harg2 arg3 harg3 arg4 harg4 arg5 harg5 arg6 harg6 arg7 harg7 arg8 harg8 arg9 harg9 hc0 x0 x1 x2 x3 x4 xs0 xs1 = k0_pay3 x0 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero off3]
  simp only [View.readAt_eq_ld, harg2.read_unread, harg8.read_unread, harg9.read_unread,
    View.ld_unit_zero (S := S1x1024x64) off3, View.ld_unit_zero (S := S64x2048) off2, View.ld_unit_zero (S := S2048x64) off2]

end Cert.KernelIdeal.Tile

end
-- ==== Proof.LibSoftmaxRow.lean ====
/-
  Laws of the extended reals behind one row of attention weights.

  A row of scores `s` becomes weights in two forms. One form takes the row maximum `M` from a start value `b`,
  exponentiates `s k - M`, sums the row to `l`, and multiplies each exponential by the reciprocal `1 / l`. The
  other form takes the maximum of `b` and `M` again, adds the row sum to a zero, and divides each exponential by
  that. On the extended reals a division by zero is not a product with an inverse, so the two forms agree once
  `l` is not zero: when every score of the row is a real number and `b` is not plus infinity, `M` is not plus
  infinity, every `s k - M` is above minus infinity, every exponential is positive, and so is their sum.

  The score itself meets the same pair of forms: a nonnegative real factor on one operand of every product of a
  contraction comes out of the sum, on all extended reals, because a product with a nonnegative real
  distributes over any sum.
-/
import Idealize.ShloMosaic.PureOps.Ideal
import Mathlib.Data.Finset.Fold

noncomputable section

namespace Cert.RowLaws

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor on the left operand of each product comes out of a finite sum of products. -/
theorem sum_scaled_mul {ι : Type} (s : Finset ι) (a b : ι → EReal) (c : ℝ) (hc : 0 ≤ c) :
    ∑ i ∈ s, (a i * (c : EReal)) * b i = (∑ i ∈ s, a i * b i) * (c : EReal) := by
  classical
  induction s using Finset.induction_on with
  | empty => simp
  | insert x s hx ih =>
    rw [Finset.sum_insert hx, Finset.sum_insert hx, ih,
      EReal.right_distrib_of_nonneg_of_ne_top (EReal.coe_nonneg.mpr hc) (EReal.coe_ne_top c), mul_right_comm]

/-- The exponential of an extended real is never negative. -/
theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

/-- Above minus infinity it is positive. -/
theorem exp_pos {x : EReal} (h : x ≠ ⊥) : 0 < Ideal.exp x := by
  induction x using EReal.rec with
  | bot => exact absurd rfl h
  | coe r => rw [Ideal.exp_coe]; exact EReal.coe_pos.mpr (Real.exp_pos r)
  | top => rw [Ideal.exp_top]; exact EReal.zero_lt_top

variable {n : ℕ}

/-- The maximum of a row, folded from a start value. -/
def rowMax (b : EReal) (s : Fin n → EReal) : EReal := (Finset.univ : Finset (Fin n)).fold max b s

theorem start_le_rowMax (b : EReal) (s : Fin n → EReal) : b ≤ rowMax b s :=
  (Finset.le_fold_max b).mpr (Or.inl le_rfl)

/-- A row of values below plus infinity, from a start below plus infinity, has its maximum below plus infinity. -/
theorem rowMax_ne_top (b : EReal) (s : Fin n → EReal) (hb : b ≠ ⊤) (hs : ∀ k, s k ≠ ⊤) : rowMax b s ≠ ⊤ := by
  have h : rowMax b s < ⊤ :=
    (Finset.fold_max_lt ⊤).mpr ⟨lt_top_iff_ne_top.mpr hb, fun k _ => lt_top_iff_ne_top.mpr (hs k)⟩
  exact h.ne

/-- THE ROW LAW: for a row of real scores the weight as exponential times the reciprocal of the row sum is the
    weight as exponential over the row sum, the second form with its maximum taken once more against the start
    value and its sum started from zero. -/
theorem weights_eq (b one zero : EReal) (hb : b ≠ ⊤) (h1 : one = 1) (h0 : zero = 0)
    (s : Fin n → EReal) (hs : ∀ k, s k ≠ ⊥ ∧ s k ≠ ⊤) (k : Fin n) :
    Ideal.exp (s k - rowMax b s) * Ideal.div one (∑ k', Ideal.exp (s k' - rowMax b s))
      = Ideal.div (Ideal.exp (s k - max b (rowMax b s))) (zero + ∑ k', Ideal.exp (s k' - max b (rowMax b s))) := by
  subst h1 h0
  rw [max_eq_right (start_le_rowMax b s), zero_add]
  have hM := rowMax_ne_top b s hb (fun k => (hs k).2)
  have hne : ∀ k', s k' - rowMax b s ≠ ⊥ := fun k' h => by
    rw [sub_eq_add_neg] at h
    rcases EReal.add_eq_bot_iff.mp h with h | h
    · exact (hs k').1 h
    · exact hM (EReal.neg_eq_bot_iff.mp h)
  have hl : (∑ k', Ideal.exp (s k' - rowMax b s)) ≠ 0 := by
    have hpos : 0 < ∑ k', Ideal.exp (s k' - rowMax b s) :=
      lt_of_lt_of_le (exp_pos (hne k))
        (Finset.single_le_sum (f := fun k' => Ideal.exp (s k' - rowMax b s)) (fun i _ => exp_nonneg _) (Finset.mem_univ k))
    exact hpos.ne'
  unfold Ideal.div
  rw [if_neg hl, if_neg hl, one_mul]

end Cert.RowLaws

end
-- ==== Proof.AttnSpec.lean ====
/-
  Attention over dequantised keys and values, as one function of the five input arrays.

  Each input is an array over batch 2, 16 heads, 2048 positions and 64 channels. A key entry is the polar code
  times 1/8 plus the residual code times the single-precision word nearest 0.01, and a value entry likewise. The
  score of query position s against key position t is the sum over the 64 channels of the query entry times 1/8
  times the key entry. A row of scores is shifted by its maximum (the fold of max from minus infinity),
  exponentiated, and summed. The output at (b, h, s, d) is the weighted sum of the value entries of channel d.

  Two arrangements of the last step are stated: one divides the finished weighted sum by the row sum, the other
  divides every weight by the row sum before the weighted sum is taken.
-/
import Idealize.ShloMosaic.PureOps.Ideal
import Idealize.ShloMosaic.PureOps.Ideal.Laws
import Idealize.ShloMosaic.Lib.ValueIdx
import proofs.«413395_j53171695125155_3_alg».proof.Proof.LibSoftmaxRow

noncomputable section

namespace Cert.Attn

open Idealize.ShloMosaic Idealize.ShloMosaic.ValueIdx

/-- The shape of each input and of the result. -/
abbrev Sx : Shape := ⟨4, ![2, 16, 2048, 64]⟩

/-- An input or result array at the ideal values. -/
abbrev Arr : Type := Sx.Idx → EReal

/-- The word of 1/8: the polar scale and the score scale. -/
def cP : EReal := Ideal.ofBits .f32 0x3E000000#32

/-- The single-precision word nearest 0.01: the residual scale. -/
def cQ : EReal := Ideal.ofBits .f32 0x3C23D70A#32

/-- The word 0xFF800000 is minus infinity. -/
theorem negInf_eq : Ideal.ofBits .f32 0xFF800000#32 = (⊥ : EReal) := by
  simp [Ideal.ofBits, Ideal.ieee]

/-- A dequantised entry: polar code times 1/8 plus residual code times the 0.01 word. -/
def deq (p r : Arr) (i : Sx.Idx) : EReal := p i * cP + r i * cQ

/-- The score of query position `s` against key position `t` in batch `b`, head `h`. -/
def score (q kp kq : Arr) (b : Fin 2) (h : Fin 16) (s t : Fin 2048) : EReal :=
  ∑ k : Fin 64, (q (ix4 b h s k) * cP) * deq kp kq (ix4 b h t k)

/-- The maximum of a row of scores, folded from minus infinity. -/
def rowTop (q kp kq : Arr) (b : Fin 2) (h : Fin 16) (s : Fin 2048) : EReal :=
  Cert.RowLaws.rowMax ⊥ (fun t : Fin 2048 => score q kp kq b h s t)

/-- The unnormalised weight: the exponential of the score shifted by its row's maximum. -/
def weight (q kp kq : Arr) (b : Fin 2) (h : Fin 16) (s t : Fin 2048) : EReal :=
  Ideal.exp (score q kp kq b h s t - rowTop q kp kq b h s)

/-- The sum of a row of weights. -/
def rowSum (q kp kq : Arr) (b : Fin 2) (h : Fin 16) (s : Fin 2048) : EReal :=
  ∑ t : Fin 2048, weight q kp kq b h s t

/-- Normalise last: the weighted sum of the value entries, divided by the row sum. -/
def outLate (q kp kq vp vq : Arr) (i : Sx.Idx) : EReal :=
  Ideal.div (∑ t : Fin 2048, weight q kp kq (i 0) (i 1) (i 2) t * deq vp vq (ix4 (i 0) (i 1) t (i 3)))
    (rowSum q kp kq (i 0) (i 1) (i 2))

/-- Normalise first: every weight divided by the row sum, then the weighted sum of the value entries. -/
def outEarly (q kp kq vp vq : Arr) (i : Sx.Idx) : EReal :=
  ∑ t : Fin 2048, Ideal.div (weight q kp kq (i 0) (i 1) (i 2) t) (rowSum q kp kq (i 0) (i 1) (i 2))
    * deq vp vq (ix4 (i 0) (i 1) t (i 3))

end Cert.Attn

end
-- ==== Proof.TileValue.lean ====
/-
  One output tile of the attention kernel, read entry by entry at the ideal values.

  The key cache holds, at channel k and position t, the dequantised key entry of the tile's (batch, head) slice;
  the value cache holds the dequantised value entries. A row of the output tile is one row of attention: the
  scores of the row's query against every key position, shifted by their maximum, exponentiated, used as weights
  on the value entries, and the weighted sum divided by the sum of the weights.
-/
import proofs.«413395_j53171695125155_3_alg».proof.Proof.Gen.KernelIdeal.Skeleton
import proofs.«413395_j53171695125155_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.Attn

open Idealize.ShloMosaic

/-- The score of one query row (64 channels) against key position `t` of a key table by channel and position. -/
def rowScore (qr : Fin 64 → EReal) (kc : Fin 64 → Fin 2048 → EReal) (t : Fin 2048) : EReal :=
  ∑ k : Fin 64, (qr k * cP) * kc k t

/-- One row of attention, normalised last: weights are exponentials of the scores shifted by their maximum. -/
def attnRow (qr : Fin 64 → EReal) (kc : Fin 64 → Fin 2048 → EReal) (vcol : Fin 2048 → EReal) : EReal :=
  Ideal.div (∑ t : Fin 2048, Ideal.exp (rowScore qr kc t - Cert.RowLaws.rowMax ⊥ (rowScore qr kc)) * vcol t)
    (∑ t : Fin 2048, Ideal.exp (rowScore qr kc t - Cert.RowLaws.rowMax ⊥ (rowScore qr kc)))

end Cert.Attn

namespace Cert.KernelIdeal.Tile

open Cert.KernelIdeal Cert.KernelIdeal.Gen Idealize.ShloMosaic.ValueIdx Cert.Attn

/-- The key cache at channel `k`, position `t`: the dequantised key entry at position `t`, channel `k`. -/
theorem keyCache_apply (x1 x2 : Vec Ideal S1x2048x64 .f32) (k : Fin 64) (t : Fin 2048) :
    k0_pay1 (F := Ideal) x1 x2 (ix2 k t) = x1 (ix3 (0 : Fin 1) t k) * cP + x2 (ix3 (0 : Fin 1) t k) * cQ := by
  unfold k0_pay1
  rw [shapeCast_self, transpose_ix2_apply]
  show shapeCast S2048x64 x1 _ (ix2 t k) * _ + shapeCast S2048x64 x2 _ (ix2 t k) * _ = _
  rw [shapeCast_1ab_ab_apply, shapeCast_1ab_ab_apply]
  rfl

/-- The value cache at position `t`, channel `d`: the dequantised value entry there. -/
theorem valCache_apply (x3 x4 : Vec Ideal S1x2048x64 .f32) (t : Fin 2048) (d : Fin 64) :
    k0_pay2 (F := Ideal) x3 x4 (ix2 t d) = x3 (ix3 (0 : Fin 1) t d) * cP + x4 (ix3 (0 : Fin 1) t d) * cQ := by
  unfold k0_pay2
  rw [shapeCast_self]
  show shapeCast S2048x64 x3 _ (ix2 t d) * _ + shapeCast S2048x64 x4 _ (ix2 t d) * _ = _
  rw [shapeCast_1ab_ab_apply, shapeCast_1ab_ab_apply]
  rfl

/-! The two matrix products, each read at an entry as a sum over its one contracted axis. -/

theorem qk_lhs_0 (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem qk_lhs_1 (i : S1024x2048.Idx) (q : dot_S1024x64_S64x2048_S1024x2048_1_0_0_1_n_n.contr.Idx) : (dot_S1024x64_S64x2048_S1024x2048_1_0_0_1_n_n.lhsIdx i q 1).val = (q ⟨0, by decide⟩).val :=
  dot_S1024x64_S64x2048_S1024x2048_1_0_0_1_n_n.lhsIdx_val_of_single rfl i q
theorem qk_rhs_0 (i : S1024x2048.Idx) (q : dot_S1024x64_S64x2048_S1024x2048_1_0_0_1_n_n.contr.Idx) : (dot_S1024x64_S64x2048_S1024x2048_1_0_0_1_n_n.rhsIdx i q 0).val = (q ⟨0, by decide⟩).val :=
  dot_S1024x64_S64x2048_S1024x2048_1_0_0_1_n_n.rhsIdx_val_of_single rfl i q
theorem qk_rhs_1 (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- Query tile times key cache into a zero accumulator: entry (r, t) is the sum over the 64 channels. -/
theorem qk_apply {φ₁ φ₂ : FTy} (lhs : FVec Ideal S1024x64 φ₁) (rhs : FVec Ideal S64x2048 φ₂) (r : Fin 1024) (t : Fin 2048) :
    matmul dot_S1024x64_S64x2048_S1024x2048_1_0_0_1_n_n none lhs rhs (constant S1024x2048 .f32 0x00000000#32) (ix2 r t)
      = ∑ k : Fin 64, lhs (ix2 r k) * rhs (ix2 k t) := by
  simp only [matmul]
  rw [Ideal.matmul_constant_zero_apply, ← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 r t) ((contrEquiv1 dot_S1024x64_S64x2048_S1024x2048_1_0_0_1_n_n 64 rfl rfl).symm k) = ix2 r k := funext fun a => Fin.ext (by
    match a with
    | ⟨0, _⟩ => exact qk_lhs_0 _ _
    | ⟨1, _⟩ => exact (qk_lhs_1 _ _).trans hk)
  have er : dot_S1024x64_S64x2048_S1024x2048_1_0_0_1_n_n.rhsIdx (ix2 r t) ((contrEquiv1 dot_S1024x64_S64x2048_S1024x2048_1_0_0_1_n_n 64 rfl rfl).symm k) = ix2 k t := funext fun a => Fin.ext (by
    match a with
    | ⟨0, _⟩ => exact (qk_rhs_0 _ _).trans hk
    | ⟨1, _⟩ => exact qk_rhs_1 _ _)
  rw [el, er]

theorem pv_lhs_0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Weights times value cache into a zero accumulator: entry (r, d) is the sum over the 2048 key positions. -/
theorem pv_apply {φ₁ φ₂ : FTy} (lhs : FVec Ideal S1024x2048 φ₁) (rhs : FVec Ideal S2048x64 φ₂) (r : Fin 1024) (d : Fin 64) :
    matmul dot_S1024x2048_S2048x64_S1024x64_1_0_0_1_n_n none lhs rhs (constant S1024x64 .f32 0x00000000#32) (ix2 r d)
      = ∑ t : Fin 2048, lhs (ix2 r t) * rhs (ix2 t d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-! The pieces of one output tile: the scores, the weights, and the two row reductions. -/

/-- The scores of a query tile against a key cache: the query block scaled by 1/8, times the cache. -/
def scoresOf (x0 : Vec Ideal S1x1024x64 .f32) (kc : FVec Ideal S64x2048 .bf16) : FVec Ideal S1024x2048 .f32 :=
  matmul dot_S1024x64_S64x2048_S1024x2048_1_0_0_1_n_n none
    (truncf .bf16 (mulf (shapeCast S1024x64 x0 shapeCasts_S1x1024x64_S1024x64) (broadcast S1024x64 (Scalar.ofBits .f32 0x3E000000#32))) bitsLt_bf16_f32)
    kc (constant S1024x2048 .f32 0x00000000#32)

/-- The row maxima of a score tile, one per query row. -/
def rowMaxOf (s : FVec Ideal S1024x2048 .f32) : FVec Ideal S1024 .f32 :=
  multiReduction .maximumf [1] S1024 s 0xFF800000#32 reduces_S1024x2048_S1024 (.inl rfl) rfl

/-- The weights of a score tile: exponentials of the scores shifted by their row's maximum. -/
def weightsOf (s : FVec Ideal S1024x2048 .f32) : FVec Ideal S1024x2048 .f32 :=
  exp (subf s (broadcastTo S1024x2048 (shapeCast S1024x1 (rowMaxOf s) shapeCasts_S1024_S1024x1) broadcasts_S1024x1_S1024x2048))

/-- The row sums of a weight tile. -/
def rowSumOf (w : FVec Ideal S1024x2048 .f32) : FVec Ideal S1024 .f32 :=
  multiReduction .add [1] S1024 w 0x00000000#32 reduces_S1024x2048_S1024 (.inl rfl) rfl

/-- The output tile is the weights times the value cache, divided row by row by the row sums. -/
theorem tile_eq (x0 : Vec Ideal S1x1024x64 .f32) (kc : FVec Ideal S64x2048 .bf16) (vc : FVec Ideal S2048x64 .bf16) :
    k0_pay3 (F := Ideal) x0 kc vc
      = shapeCast S1x1024x64
          (divf (matmul dot_S1024x2048_S2048x64_S1024x64_1_0_0_1_n_n none (truncf .bf16 (weightsOf (scoresOf x0 kc)) bitsLt_bf16_f32) vc (constant S1024x64 .f32 0x00000000#32))
            (broadcastTo S1024x64 (shapeCast S1024x1 (rowSumOf (weightsOf (scoresOf x0 kc))) shapeCasts_S1024_S1024x1) broadcasts_S1024x1_S1024x64))
          shapeCasts_S1024x64_S1x1024x64 := rfl

/-- A score entry is the row score of the query row against the cache. -/
theorem scoresOf_apply (x0 : Vec Ideal S1x1024x64 .f32) (kc : FVec Ideal S64x2048 .bf16) (r : Fin 1024) (t : Fin 2048) :
    scoresOf x0 kc (ix2 r t) = rowScore (fun k => x0 (ix3 (0 : Fin 1) r k)) (fun k t => kc (ix2 k t)) t := by
  unfold scoresOf rowScore
  rw [qk_apply]
  refine Finset.sum_congr rfl fun k _ => ?_
  show (shapeCast S1024x64 x0 shapeCasts_S1x1024x64_S1024x64 (ix2 r k) * _) * _ = _
  rw [shapeCast_1ab_ab_apply]
  rfl

/-- A column of per-row values spread along the rows: entry (r, t) is the value of row r. -/
theorem column_apply {α : Type} {n : ℕ} (v : S1024.Idx → α) (h : S1024.ShapeCasts S1024x1)
    (h' : S1024x1.Broadcasts ⟨2, ![1024, n]⟩) (r : Fin 1024) (t : Fin n) :
    broadcastTo ⟨2, ![1024, n]⟩ (shapeCast S1024x1 v h) h' (ix2 r t) = v (ix1 r) := by
  refine (broadcastTo_apply (shapeCast S1024x1 v h) h' (ix2 r t) (ix2 r (0 : Fin 1)) fun a => ?_).trans ?_
  · match a with
    | ⟨0, _⟩ => show r.val = if (1024 : ℕ) = 1 then 0 else r.val; rw [if_neg (by decide)]
    | ⟨1, _⟩ => show 0 = if (1 : ℕ) = 1 then 0 else _; rw [if_pos rfl]
  · exact shapeCast_apply v h _ _ (by
      rw [Shape.rowMajor_val_one, Shape.rowMajor_val_two]
      show r.val = r.val * 1 + 0
      omega)

/-- Inserting position `t` on the reduced axis of row `r` gives entry (r, t). -/
theorem lift_row (r : Fin 1024) (t : Fin 2048) : reduces_S1024x2048_S1024.lift (ix1 r) t = ix2 r t :=
  funext fun a => Fin.ext (by match a with | ⟨0, _⟩ => rfl | ⟨1, _⟩ => rfl)

/-- A row maximum is the fold of max from minus infinity over the row. -/
theorem rowMaxOf_apply (s : FVec Ideal S1024x2048 .f32) (r : Fin 1024) :
    rowMaxOf s (ix1 r) = Cert.RowLaws.rowMax ⊥ (fun t : Fin 2048 => s (ix2 r t)) := by
  unfold rowMaxOf Cert.RowLaws.rowMax
  refine (Ideal.multiReduction_maximumf_single s _ reduces_S1024x2048_S1024 _ _ (ix1 r)).trans ?_
  show Finset.fold max (Ideal.ofBits .f32 0xFF800000#32) (s ∘ reduces_S1024x2048_S1024.lift (ix1 r)) Finset.univ = _
  rw [negInf_eq]
  exact congrArg (fun f => Finset.fold max ⊥ f Finset.univ) (funext fun t => congrArg s (lift_row r t))

/-- A row sum is the sum over the row. -/
theorem rowSumOf_apply (w : FVec Ideal S1024x2048 .f32) (r : Fin 1024) :
    rowSumOf w (ix1 r) = ∑ t : Fin 2048, w (ix2 r t) := by
  unfold rowSumOf
  refine (Ideal.multiReduction_add_single w _ reduces_S1024x2048_S1024 _ _ (ix1 r)).trans ?_
  exact Finset.sum_congr rfl fun t _ => congrArg w (lift_row r t)

/-- A weight entry is the exponential of the score shifted by its row's maximum. -/
theorem weightsOf_apply (s : FVec Ideal S1024x2048 .f32) (r : Fin 1024) (t : Fin 2048) :
    weightsOf s (ix2 r t) = Ideal.exp (s (ix2 r t) - Cert.RowLaws.rowMax ⊥ (fun t' : Fin 2048 => s (ix2 r t'))) := by
  unfold weightsOf
  show Ideal.exp (s (ix2 r t) - broadcastTo S1024x2048 (shapeCast S1024x1 (rowMaxOf s) shapeCasts_S1024_S1024x1) broadcasts_S1024x1_S1024x2048 (ix2 r t)) = _
  rw [column_apply, rowMaxOf_apply]

/-- AN OUTPUT ENTRY: row `r`, channel `d` of the tile is one row of attention of the query row against the key
    cache, weighting channel `d` of the value cache. -/
theorem out_apply (x0 : Vec Ideal S1x1024x64 .f32) (kc : FVec Ideal S64x2048 .bf16) (vc : FVec Ideal S2048x64 .bf16)
    (u : Fin 1) (r : Fin 1024) (d : Fin 64) :
    k0_pay3 (F := Ideal) x0 kc vc (ix3 u r d)
      = attnRow (fun k => x0 (ix3 (0 : Fin 1) r k)) (fun k t => kc (ix2 k t)) (fun t => vc (ix2 t d)) := by
  have hs : (fun t' : Fin 2048 => scoresOf x0 kc (ix2 r t')) = rowScore (fun k => x0 (ix3 (0 : Fin 1) r k)) (fun k t => kc (ix2 k t)) :=
    funext fun t' => scoresOf_apply x0 kc r t'
  have hw : ∀ t : Fin 2048, weightsOf (scoresOf x0 kc) (ix2 r t)
      = Ideal.exp (rowScore (fun k => x0 (ix3 (0 : Fin 1) r k)) (fun k t => kc (ix2 k t)) t
          - Cert.RowLaws.rowMax ⊥ (rowScore (fun k => x0 (ix3 (0 : Fin 1) r k)) (fun k t => kc (ix2 k t)))) := fun t => by
    rw [weightsOf_apply, hs, scoresOf_apply]
  rw [tile_eq, shapeCast_ab_1ab_apply]
  show Ideal.div (matmul dot_S1024x2048_S2048x64_S1024x64_1_0_0_1_n_n none (truncf .bf16 (weightsOf (scoresOf x0 kc)) bitsLt_bf16_f32) vc (constant S1024x64 .f32 0x00000000#32) (ix2 r d))
      (broadcastTo S1024x64 (shapeCast S1024x1 (rowSumOf (weightsOf (scoresOf x0 kc))) shapeCasts_S1024_S1024x1) broadcasts_S1024x1_S1024x64 (ix2 r d)) = _
  rw [pv_apply, column_apply, rowSumOf_apply]
  unfold attnRow
  refine congrArg₂ Ideal.div (Finset.sum_congr rfl fun t _ => ?_) (Finset.sum_congr rfl fun t _ => hw t)
  show weightsOf (scoresOf x0 kc) (ix2 r t) * _ = _
  rw [hw t]

end Cert.KernelIdeal.Tile

end
-- ==== Proof.GridPoints.lean ====
/-
  The attention kernel over its grid of 32 (batch, head) slices by 2 query tiles, read as values.

  The grid runs the two query tiles of a slice one after the other. The key, value code blocks of a slice are the
  same at both tiles, so the caches the first tile builds are the caches of the second tile's own blocks, and
  every tile's output is the attention of its query block against the caches of its own slice. A tile's output
  block lands at rows 1024·(tile) … of its slice, the tiles cover the array, and the array is then viewed as
  batch by head.
-/
import proofs.«413395_j53171695125155_3_alg».proof.Proof.Gen.KernelIdeal.Frame
import proofs.«413395_j53171695125155_3_alg».proof.Proof.Pieces
import proofs.«413395_j53171695125155_3_alg».proof.Proof.TileValue
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx Cert.Attn

variable {F : FTy → Type} [FloatOps F]
variable (m : (ℓ : Loc nD τ sig) → Buf (Elt F) ℓ) (ρ : Dev nD → PrngReg)

/-- The (batch, head) slice a grid point works on: two consecutive points share one. -/
def sliceOf (t : Fin cfg0.N) : Fin 32 := ⟨t.val / 2, by have := t.isLt; have : cfg0.N = 64 := N_0; omega⟩

/-- The row of its slice at which a point's query tile starts, plus `r`. -/
def rowOf (t : Fin cfg0.N) (r : Fin 1024) : Fin 2048 := ⟨t.val % 2 * 1024 + r.val, by have := r.isLt; omega⟩

/-- The printed index maps over the grid: the query and output windows move with (slice, tile); the four code
    windows with the slice only. -/
theorem idx_q : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx_o : ∀ t : Fin cfg0.N, win0_5.index t (0 : Fin 3) = t.val / 2 ∧ win0_5.index t (1 : Fin 3) = t.val % 2 ∧ win0_5.index t (2 : Fin 3) = 0 :=
  (by decide +kernel : ∀ t : Fin grid0.N, _)
theorem idx_w1 : ∀ t : Fin cfg0.N, (0 : ℕ) = 0 ∧ (0 : ℕ) = 0 ∧ (0 : ℕ) = 0 ∧ win0_1.index t (0 : Fin 3) = t.val / 2 ∧ win0_1.index t (1 : Fin 3) = 0 ∧ win0_1.index t (2 : Fin 3) = 0 :=
  (by decide +kernel : ∀ t : Fin grid0.N, _)
theorem idx_w2 : ∀ t : Fin cfg0.N, (0 : ℕ) = 0 ∧ (0 : ℕ) = 0 ∧ (0 : ℕ) = 0 ∧ win0_2.index t (0 : Fin 3) = t.val / 2 ∧ win0_2.index t (1 : Fin 3) = 0 ∧ win0_2.index t (2 : Fin 3) = 0 :=
  (by decide +kernel : ∀ t : Fin grid0.N, _)
theorem idx_w3 : ∀ t : Fin cfg0.N, (0 : ℕ) = 0 ∧ (0 : ℕ) = 0 ∧ (0 : ℕ) = 0 ∧ win0_3.index t (0 : Fin 3) = t.val / 2 ∧ win0_3.index t (1 : Fin 3) = 0 ∧ win0_3.index t (2 : Fin 3) = 0 :=
  (by decide +kernel : ∀ t : Fin grid0.N, _)
theorem idx_w4 : ∀ t : Fin cfg0.N, (0 : ℕ) = 0 ∧ (0 : ℕ) = 0 ∧ (0 : ℕ) = 0 ∧ win0_4.index t (0 : Fin 3) = t.val / 2 ∧ win0_4.index t (1 : Fin 3) = 0 ∧ win0_4.index t (2 : Fin 3) = 0 :=
  (by decide +kernel : ∀ t : Fin grid0.N, _)

/-- The query block at a point: rows `1024·tile + r` of the point's slice. -/
theorem blk0_apply (c : Dev nD) (t : Fin cfg0.N) (u : Fin 1) (r : Fin 1024) (k : Fin 64) :
    (iblk m c 0 t : Vec F S1x1024x64 .f32) (ix3 u r k) = (V m c main_v0 : Vec F S32x2048x64 .f32) (ix3 (sliceOf t) (rowOf t r) k) := by
  obtain ⟨e0, e1, e2⟩ := idx_q t
  unfold iblk
  rw [View.read_apply]
  show V m c main_v0 _ = V m c main_v0 _
  congr 1
  funext a
  apply Fin.ext
  match a with
  | ⟨0, _⟩ => show win0_0.index t (0 : Fin 3) * 1 + 1 * u.val = t.val / 2; have hu : u.val < 1 := u.isLt; omega
  | ⟨1, _⟩ => show win0_0.index t (1 : Fin 3) * 1024 + 1 * r.val = t.val % 2 * 1024 + r.val; omega
  | ⟨2, _⟩ => show win0_0.index t (2 : Fin 3) * 64 + 1 * k.val = k.val; omega

/-- Window 1's block at a point is the whole (batch, head) slice of its array: position and channel unchanged. -/
theorem blk1_apply (c : Dev nD) (t : Fin cfg0.N) (y : S1x2048x64.Idx) :
    (iblk m c 1 t : Vec F S1x2048x64 .f32) y = (V m c main_v1 : Vec F S32x2048x64 .f32) (ix3 (sliceOf t) (y 1) (y 2)) := by
  obtain ⟨-, -, -, e0, e1, e2⟩ := idx_w1 t
  unfold iblk
  rw [View.read_apply]
  show V m c main_v1 _ = V m c main_v1 _
  congr 1
  funext a
  apply Fin.ext
  match a with
  | ⟨0, _⟩ => show win0_1.index t (0 : Fin 3) * 1 + 1 * (y 0).val = t.val / 2; have hy : (y 0).val < 1 := (y 0).isLt; omega
  | ⟨1, _⟩ => show win0_1.index t (1 : Fin 3) * 2048 + 1 * (y 1).val = (y 1).val; omega
  | ⟨2, _⟩ => show win0_1.index t (2 : Fin 3) * 64 + 1 * (y 2).val = (y 2).val; omega

/-- So it is the same block at the two query tiles of one slice. -/
theorem blk1_pair (c : Dev nD) (t t' : Fin cfg0.N) (h : t.val / 2 = t'.val / 2) : iblk m c 1 t = iblk m c 1 t' := by
  funext y
  show (iblk m c 1 t : Vec F S1x2048x64 .f32) y = (iblk m c 1 t' : Vec F S1x2048x64 .f32) y
  rw [blk1_apply, blk1_apply, show sliceOf t = sliceOf t' from Fin.ext h]

/-- Window 2's block at a point is the whole (batch, head) slice of its array: position and channel unchanged. -/
theorem blk2_apply (c : Dev nD) (t : Fin cfg0.N) (y : S1x2048x64.Idx) :
    (iblk m c 2 t : Vec F S1x2048x64 .f32) y = (V m c main_v2 : Vec F S32x2048x64 .f32) (ix3 (sliceOf t) (y 1) (y 2)) := by
  obtain ⟨-, -, -, e0, e1, e2⟩ := idx_w2 t
  unfold iblk
  rw [View.read_apply]
  show V m c main_v2 _ = V m c main_v2 _
  congr 1
  funext a
  apply Fin.ext
  match a with
  | ⟨0, _⟩ => show win0_2.index t (0 : Fin 3) * 1 + 1 * (y 0).val = t.val / 2; have hy : (y 0).val < 1 := (y 0).isLt; omega
  | ⟨1, _⟩ => show win0_2.index t (1 : Fin 3) * 2048 + 1 * (y 1).val = (y 1).val; omega
  | ⟨2, _⟩ => show win0_2.index t (2 : Fin 3) * 64 + 1 * (y 2).val = (y 2).val; omega

/-- So it is the same block at the two query tiles of one slice. -/
theorem blk2_pair (c : Dev nD) (t t' : Fin cfg0.N) (h : t.val / 2 = t'.val / 2) : iblk m c 2 t = iblk m c 2 t' := by
  funext y
  show (iblk m c 2 t : Vec F S1x2048x64 .f32) y = (iblk m c 2 t' : Vec F S1x2048x64 .f32) y
  rw [blk2_apply, blk2_apply, show sliceOf t = sliceOf t' from Fin.ext h]

/-- Window 3's block at a point is the whole (batch, head) slice of its array: position and channel unchanged. -/
theorem blk3_apply (c : Dev nD) (t : Fin cfg0.N) (y : S1x2048x64.Idx) :
    (iblk m c 3 t : Vec F S1x2048x64 .f32) y = (V m c main_v3 : Vec F S32x2048x64 .f32) (ix3 (sliceOf t) (y 1) (y 2)) := by
  obtain ⟨-, -, -, e0, e1, e2⟩ := idx_w3 t
  unfold iblk
  rw [View.read_apply]
  show V m c main_v3 _ = V m c main_v3 _
  congr 1
  funext a
  apply Fin.ext
  match a with
  | ⟨0, _⟩ => show win0_3.index t (0 : Fin 3) * 1 + 1 * (y 0).val = t.val / 2; have hy : (y 0).val < 1 := (y 0).isLt; omega
  | ⟨1, _⟩ => show win0_3.index t (1 : Fin 3) * 2048 + 1 * (y 1).val = (y 1).val; omega
  | ⟨2, _⟩ => show win0_3.index t (2 : Fin 3) * 64 + 1 * (y 2).val = (y 2).val; omega

/-- So it is the same block at the two query tiles of one slice. -/
theorem blk3_pair (c : Dev nD) (t t' : Fin cfg0.N) (h : t.val / 2 = t'.val / 2) : iblk m c 3 t = iblk m c 3 t' := by
  funext y
  show (iblk m c 3 t : Vec F S1x2048x64 .f32) y = (iblk m c 3 t' : Vec F S1x2048x64 .f32) y
  rw [blk3_apply, blk3_apply, show sliceOf t = sliceOf t' from Fin.ext h]

/-- Window 4's block at a point is the whole (batch, head) slice of its array: position and channel unchanged. -/
theorem blk4_apply (c : Dev nD) (t : Fin cfg0.N) (y : S1x2048x64.Idx) :
    (iblk m c 4 t : Vec F S1x2048x64 .f32) y = (V m c main_v4 : Vec F S32x2048x64 .f32) (ix3 (sliceOf t) (y 1) (y 2)) := by
  obtain ⟨-, -, -, e0, e1, e2⟩ := idx_w4 t
  unfold iblk
  rw [View.read_apply]
  show V m c main_v4 _ = V m c main_v4 _
  congr 1
  funext a
  apply Fin.ext
  match a with
  | ⟨0, _⟩ => show win0_4.index t (0 : Fin 3) * 1 + 1 * (y 0).val = t.val / 2; have hy : (y 0).val < 1 := (y 0).isLt; omega
  | ⟨1, _⟩ => show win0_4.index t (1 : Fin 3) * 2048 + 1 * (y 1).val = (y 1).val; omega
  | ⟨2, _⟩ => show win0_4.index t (2 : Fin 3) * 64 + 1 * (y 2).val = (y 2).val; omega

/-- So it is the same block at the two query tiles of one slice. -/
theorem blk4_pair (c : Dev nD) (t t' : Fin cfg0.N) (h : t.val / 2 = t'.val / 2) : iblk m c 4 t = iblk m c 4 t' := by
  funext y
  show (iblk m c 4 t : Vec F S1x2048x64 .f32) y = (iblk m c 4 t' : Vec F S1x2048x64 .f32) y
  rw [blk4_apply, blk4_apply, show sliceOf t = sliceOf t' from Fin.ext h]

/-- After the first query tile of a slice the two scratch buffers hold the caches of that slice's code blocks. -/
theorem caches_first (c : Dev nD) (t : Fin cfg0.N) (h0 : t.val % 2 = 0) :
    (outsAt0 m c t.val t.isLt).2.1 = k0_pay1 (iblk m c 1 t) (iblk m c 2 t)
      ∧ (outsAt0 m c t.val t.isLt).2.2 = k0_pay2 (iblk m c 3 t) (iblk m c 4 t) := by
  rw [outsAt0_A m c t h0]
  dsimp only
  exact ⟨keyCache_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
    valCache_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)⟩

/-- EVERY POINT's output tile is computed from its query block and the caches of its own slice's code blocks. -/
theorem out_at (c : Dev nD) (t : Fin cfg0.N) :
    (outsAt0 m c t.val t.isLt).1
      = k0_pay3 (iblk m c 0 t) (k0_pay1 (iblk m c 1 t) (iblk m c 2 t)) (k0_pay2 (iblk m c 3 t) (iblk m c 4 t)) := by
  by_cases h0 : t.val % 2 = 0
  · rw [outsAt0_A m c t h0]
    dsimp only
    exact out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
  · rw [outsAt0_B m c t h0]
    dsimp only
    have hlt : t.val - 1 < cfg0.N := Nat.lt_of_le_of_lt (Nat.sub_le _ _) t.isLt
    have hp : (⟨t.val - 1, hlt⟩ : Fin cfg0.N).val % 2 = 0 := by dsimp only; omega
    have hh : (⟨t.val - 1, hlt⟩ : Fin cfg0.N).val / 2 = t.val / 2 := by dsimp only; omega
    obtain ⟨eK, eV⟩ := caches_first m c ⟨t.val - 1, hlt⟩ hp
    dsimp only at eK eV
    rw [out_second c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
      (outsAt0 m c (t.val - 1) hlt).2.1 (outsAt0 m c (t.val - 1) hlt).2.2, eK, eV,
      blk1_pair m c _ t hh, blk2_pair m c _ t hh, blk3_pair m c _ t hh, blk4_pair m c _ t hh]

end Cert.KernelIdeal.Tile

end
-- ==== Proof.KernelRun.lean ====
/-
  The attention kernel's run at the ideal values: its result array is attention over the dequantised keys and
  values, normalised after the weighted sum.

  The five arguments are viewed flat, 32 slices of 2048 positions by 64 channels (slice = 16·batch + head); every
  grid point writes one 1024-row tile of one slice; the tiles cover the flat result; the flat result is viewed back
  as batch by head.
-/
import proofs.«413395_j53171695125155_3_alg».proof.Proof.GridPoints
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx Cert.Attn

variable (m : (ℓ : Loc nD τ sig) → Buf (Elt Ideal) ℓ) (ρ : Dev nD → PrngReg)

/-- The batch and the head of a slice. -/
def batchOf (b : Fin 32) : Fin 2 := ⟨b.val / 16, by have := b.isLt; omega⟩
def headOf (b : Fin 32) : Fin 16 := ⟨b.val % 16, Nat.mod_lt _ (by decide)⟩

/-- Row-major positions agree: (slice / 16, slice mod 16, s, k) in the four-axis array is (slice, s, k) in the flat one. -/
theorem split_pos (b : Fin 32) (s : Fin 2048) (k : Fin 64) :
    (S2x16x2048x64.rowMajor (ix4 (batchOf b) (headOf b) s k)).val = (S32x2048x64.rowMajor (ix3 b s k)).val := by
  rw [Shape.rowMajor_val_four, Shape.rowMajor_val_three]
  show ((b.val / 16 * 16 + b.val % 16) * 2048 + s.val) * 64 + k.val = (b.val * 2048 + s.val) * 64 + k.val
  have : b.val / 16 * 16 + b.val % 16 = b.val := by omega
  rw [this]

/-- The flat view of argument 0, entry (slice, position, channel), is the argument at (slice / 16, slice mod 16, position, channel). -/
theorem flat0_apply (c : Dev nD) (b : Fin 32) (s : Fin 2048) (k : Fin 64) :
    (V m c main_v0 : Vec Ideal S32x2048x64 .f32) (ix3 b s k)
      = (m ((c : Thread nD τ).loc main_arg0) : Vec Ideal S2x16x2048x64 .f32) (ix4 (batchOf b) (headOf b) s k) := by
  have e : (V m c main_v0 : Vec Ideal S32x2048x64 .f32)
      = shapeCast S32x2048x64 (m ((c : Thread nD τ).loc main_arg0) : Vec Ideal S2x16x2048x64 .f32) shapeCasts_S2x16x2048x64_S32x2048x64 := by
    show StableHlo.after hostOps0 (fun b => m (c, b)) (Proc.devRef .tc main_v0) = _
    after_results
    rfl
  rw [e]
  exact shapeCast_apply _ _ _ _ (split_pos b s k)

/-- The flat view of argument 1, entry (slice, position, channel), is the argument at (slice / 16, slice mod 16, position, channel). -/
theorem flat1_apply (c : Dev nD) (b : Fin 32) (s : Fin 2048) (k : Fin 64) :
    (V m c main_v1 : Vec Ideal S32x2048x64 .f32) (ix3 b s k)
      = (m ((c : Thread nD τ).loc main_arg1) : Vec Ideal S2x16x2048x64 .f32) (ix4 (batchOf b) (headOf b) s k) := by
  have e : (V m c main_v1 : Vec Ideal S32x2048x64 .f32)
      = shapeCast S32x2048x64 (m ((c : Thread nD τ).loc main_arg1) : Vec Ideal S2x16x2048x64 .f32) shapeCasts_S2x16x2048x64_S32x2048x64 := by
    show StableHlo.after hostOps0 (fun b => m (c, b)) (Proc.devRef .tc main_v1) = _
    after_results
    rfl
  rw [e]
  exact shapeCast_apply _ _ _ _ (split_pos b s k)

/-- The flat view of argument 2, entry (slice, position, channel), is the argument at (slice / 16, slice mod 16, position, channel). -/
theorem flat2_apply (c : Dev nD) (b : Fin 32) (s : Fin 2048) (k : Fin 64) :
    (V m c main_v2 : Vec Ideal S32x2048x64 .f32) (ix3 b s k)
      = (m ((c : Thread nD τ).loc main_arg2) : Vec Ideal S2x16x2048x64 .f32) (ix4 (batchOf b) (headOf b) s k) := by
  have e : (V m c main_v2 : Vec Ideal S32x2048x64 .f32)
      = shapeCast S32x2048x64 (m ((c : Thread nD τ).loc main_arg2) : Vec Ideal S2x16x2048x64 .f32) shapeCasts_S2x16x2048x64_S32x2048x64 := by
    show StableHlo.after hostOps0 (fun b => m (c, b)) (Proc.devRef .tc main_v2) = _
    after_results
    rfl
  rw [e]
  exact shapeCast_apply _ _ _ _ (split_pos b s k)

/-- The flat view of argument 3, entry (slice, position, channel), is the argument at (slice / 16, slice mod 16, position, channel). -/
theorem flat3_apply (c : Dev nD) (b : Fin 32) (s : Fin 2048) (k : Fin 64) :
    (V m c main_v3 : Vec Ideal S32x2048x64 .f32) (ix3 b s k)
      = (m ((c : Thread nD τ).loc main_arg3) : Vec Ideal S2x16x2048x64 .f32) (ix4 (batchOf b) (headOf b) s k) := by
  have e : (V m c main_v3 : Vec Ideal S32x2048x64 .f32)
      = shapeCast S32x2048x64 (m ((c : Thread nD τ).loc main_arg3) : Vec Ideal S2x16x2048x64 .f32) shapeCasts_S2x16x2048x64_S32x2048x64 := by
    show StableHlo.after hostOps0 (fun b => m (c, b)) (Proc.devRef .tc main_v3) = _
    after_results
    rfl
  rw [e]
  exact shapeCast_apply _ _ _ _ (split_pos b s k)

/-- The flat view of argument 4, entry (slice, position, channel), is the argument at (slice / 16, slice mod 16, position, channel). -/
theorem flat4_apply (c : Dev nD) (b : Fin 32) (s : Fin 2048) (k : Fin 64) :
    (V m c main_v4 : Vec Ideal S32x2048x64 .f32) (ix3 b s k)
      = (m ((c : Thread nD τ).loc main_arg4) : Vec Ideal S2x16x2048x64 .f32) (ix4 (batchOf b) (headOf b) s k) := by
  have e : (V m c main_v4 : Vec Ideal S32x2048x64 .f32)
      = shapeCast S32x2048x64 (m ((c : Thread nD τ).loc main_arg4) : Vec Ideal S2x16x2048x64 .f32) shapeCasts_S2x16x2048x64_S32x2048x64 := by
    show StableHlo.after hostOps0 (fun b => m (c, b)) (Proc.devRef .tc main_v4) = _
    after_results
    rfl
  rw [e]
  exact shapeCast_apply _ _ _ _ (split_pos b s k)

/-- The five flat arrays the grid reads: query, key codes, value codes. -/
abbrev qFlat (c : Dev nD) : S32x2048x64.Idx → EReal := V m c main_v0
abbrev kpFlat (c : Dev nD) : S32x2048x64.Idx → EReal := V m c main_v1
abbrev kqFlat (c : Dev nD) : S32x2048x64.Idx → EReal := V m c main_v2
abbrev vpFlat (c : Dev nD) : S32x2048x64.Idx → EReal := V m c main_v3
abbrev vqFlat (c : Dev nD) : S32x2048x64.Idx → EReal := V m c main_v4

/-- One entry of the flat result: a row of attention of the slice's query row against the slice's dequantised
    keys, weighting one channel of the slice's dequantised values. -/
def flatEntry (c : Dev nD) (b : Fin 32) (s : Fin 2048) (d : Fin 64) : EReal :=
  attnRow (fun k => qFlat m c (ix3 b s k))
    (fun k t => kpFlat m c (ix3 b t k) * cP + kqFlat m c (ix3 b t k) * cQ)
    (fun t => vpFlat m c (ix3 b t d) * cP + vqFlat m c (ix3 b t d) * cQ)

/-- The flat result array. -/
def flatOut (c : Dev nD) : Vec Ideal S32x2048x64 .f32 := fun i => flatEntry m c (i 0) (i 1) (i 2)

/-- WHAT A POINT WRITES BACK is its block of the flat result. -/
theorem flushed_eq (c : Dev nD) (t : Fin cfg0.N) :
    (dats m 0 c).flushed 5 t = ((cfg0.win 5).blk t).view.read (Elt Ideal) (flatOut m c) := by
  show (cfg0.win 5).cut (grid0.coords t) ((dats m 0 c).after 5 t) = _
  rw [after0_5, out_at]
  obtain ⟨e0, e1, e2⟩ := idx_o t
  funext y
  obtain ⟨u, r, d, rfl⟩ : ∃ (u : Fin 1) (r : Fin 1024) (d : Fin 64), y = ix3 u r d := ⟨y 0, y 1, y 2, eq_ix3 y⟩
  rw [View.read_apply]
  have hemb : ((cfg0.win 5).blk t).view.emb (ix3 u r d) = ix3 (sliceOf t) (rowOf t r) d := by
    funext a
    apply Fin.ext
    match a with
    | ⟨0, _⟩ => show win0_5.index t (0 : Fin 3) * 1 + 1 * u.val = t.val / 2; have hu : u.val < 1 := u.isLt; omega
    | ⟨1, _⟩ => show win0_5.index t (1 : Fin 3) * 1024 + 1 * r.val = t.val % 2 * 1024 + r.val; omega
    | ⟨2, _⟩ => show win0_5.index t (2 : Fin 3) * 64 + 1 * d.val = d.val; omega
  rw [hemb]
  show k0_pay3 (F := Ideal) (iblk m c 0 t) (k0_pay1 (iblk m c 1 t) (iblk m c 2 t)) (k0_pay2 (iblk m c 3 t) (iblk m c 4 t)) (ix3 u r d)
    = flatEntry m c (sliceOf t) (rowOf t r) d
  rw [out_apply]
  unfold flatEntry
  refine congr (congr (congrArg attnRow ?_) ?_) ?_
  · funext k
    exact blk0_apply m c t 0 r k
  · funext k t'
    rw [keyCache_apply, blk1_apply, blk2_apply]
  · funext t'
    rw [valCache_apply, blk3_apply, blk4_apply]

/-- Every entry of the flat result lies in some point's block: row `s` of slice `b` in tile `s / 1024`. -/
theorem covered (i : S32x2048x64.Idx) :
    ∃ t : Fin cfg0.N, (cfg0.win 5).flush t = true ∧ i ∈ ((cfg0.win 5).blk t).view.set := by
  have hN : cfg0.N = 64 := N_0
  have h0 : (i 0).val < 32 := (i 0).isLt
  have h1 : (i 1).val < 2048 := (i 1).isLt
  have h2 : (i 2).val < 64 := (i 2).isLt
  have hlt : (i 0).val * 2 + (i 1).val / 1024 < cfg0.N := by omega
  obtain ⟨e0, e1, e2⟩ := idx_o ⟨(i 0).val * 2 + (i 1).val / 1024, hlt⟩
  dsimp only at e0 e1 e2
  refine ⟨⟨(i 0).val * 2 + (i 1).val / 1024, hlt⟩, flush0_5 _, ?_⟩
  show i ∈ ((View.whole main_v5).slice (win0_5.rect ⟨(i 0).val * 2 + (i 1).val / 1024, hlt⟩)).set
  rw [View.set_slice_whole, Rect.mem_set_unit]
  intro a
  match a with
  | ⟨0, _⟩ =>
    show win0_5.index ⟨(i 0).val * 2 + (i 1).val / 1024, hlt⟩ (0 : Fin 3) * 1 ≤ (i 0).val
      ∧ (i 0).val < win0_5.index ⟨(i 0).val * 2 + (i 1).val / 1024, hlt⟩ (0 : Fin 3) * 1 + 1
    omega
  | ⟨1, _⟩ =>
    show win0_5.index ⟨(i 0).val * 2 + (i 1).val / 1024, hlt⟩ (1 : Fin 3) * 1024 ≤ (i 1).val
      ∧ (i 1).val < win0_5.index ⟨(i 0).val * 2 + (i 1).val / 1024, hlt⟩ (1 : Fin 3) * 1024 + 1024
    omega
  | ⟨2, _⟩ =>
    show win0_5.index ⟨(i 0).val * 2 + (i 1).val / 1024, hlt⟩ (2 : Fin 3) * 64 ≤ (i 2).val
      ∧ (i 2).val < win0_5.index ⟨(i 0).val * 2 + (i 1).val / 1024, hlt⟩ (2 : Fin 3) * 64 + 64
    omega

/-- So after the last point the flat result array holds `flatOut`. -/
theorem final (c : Dev nD) : (dats m 0 c).arrAt 5 cfg0.N = flatOut m c :=
  (dats m 0 c).arrAt_eq_of_cover 5 (flatOut m c) (fun t _ => flushed_eq m c t) (covered)

end Cert.KernelIdeal.Tile

end
-- ==== Proof.KernelResult.lean ====
/-
  The result of the attention kernel's run, as the shared function of its five arguments.

  The flat result, viewed back as batch by head, is attention normalised after the weighted sum: entry
  (b, h, s, d) is entry (16·b + h, s, d) of the flat result, and the flat arrays the grid read are the arguments
  viewed flat the same way.
-/
import proofs.«413395_j53171695125155_3_alg».proof.Proof.KernelRun
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx Cert.Attn

variable (m : (ℓ : Loc nD τ sig) → Buf (Elt Ideal) ℓ) (ρ : Dev nD → PrngReg)

/-- The shared function at an entry is one row of attention over the entry's (batch, head) slice. -/
theorem outLate_apply (q kp kq vp vq : Arr) (b : Fin 2) (h : Fin 16) (s : Fin 2048) (d : Fin 64) :
    outLate q kp kq vp vq (ix4 b h s d)
      = attnRow (fun k => q (ix4 b h s k)) (fun k t => deq kp kq (ix4 b h t k)) (fun t => deq vp vq (ix4 b h t d)) := rfl

/-- An entry of the flat result is the shared function of the arguments at (slice / 16, slice mod 16, s, d). -/
theorem flatEntry_eq (c : Dev nD) (b : Fin 32) (s : Fin 2048) (d : Fin 64) :
    flatEntry m c b s d = outLate (m ((c : Thread nD τ).loc main_arg0)) (m ((c : Thread nD τ).loc main_arg1)) (m ((c : Thread nD τ).loc main_arg2)) (m ((c : Thread nD τ).loc main_arg3)) (m ((c : Thread nD τ).loc main_arg4)) (ix4 (batchOf b) (headOf b) s d) := by
  rw [outLate_apply]
  unfold flatEntry
  refine congr (congr (congrArg attnRow ?_) ?_) ?_
  · funext k
    exact flat0_apply m c b s k
  · funext k t
    exact congrArg₂ (fun x y : EReal => x * cP + y * cQ) (flat1_apply m c b t k) (flat2_apply m c b t k)
  · funext t
    exact congrArg₂ (fun x y : EReal => x * cP + y * cQ) (flat3_apply m c b t d) (flat4_apply m c b t d)

/-- The slice of (b, h). -/
def sliceAt (b : Fin 2) (h : Fin 16) : Fin 32 := ⟨b.val * 16 + h.val, by have := b.isLt; have := h.isLt; omega⟩

/-- THE RESULT ARRAY after the host's view back to batch by head. -/
theorem result_eq (c : Dev nD) :
    Pipeline.afterTail₀ cfgs (dats m) 0 (V0 m) [hostOps1] c main_v6 = outLate (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v5)
      = flatOut m c :=
    (Pipeline.withArrays_arr spec0 launch0.win.arr_inj c _ _ 5).trans (final m c)
  funext i
  obtain ⟨b, h, s, d, rfl⟩ : ∃ (b : Fin 2) (h : Fin 16) (s : Fin 2048) (d : Fin 64), i = ix4 b h s d :=
    ⟨i 0, i 1, i 2, i 3, eq_ix4 i⟩
  show shapeCast S2x16x2048x64 (Pipeline.withArrays (cfgs 0).spec c (V0 m c) (fun w => (dats m 0 c).arrAt w (cfgs 0).N) (Proc.tc.devRef main_v5))
    shapeCasts_S32x2048x64_S2x16x2048x64 (ix4 b h s d) = _
  rw [hw]
  refine (shapeCast_apply (flatOut m c) shapeCasts_S32x2048x64_S2x16x2048x64 (ix4 b h s d) (ix3 (sliceAt b h) s d) (by
    rw [Shape.rowMajor_val_three, Shape.rowMajor_val_four]
    rfl)).trans ?_
  show flatEntry m c (sliceAt b h) s d = _
  rw [flatEntry_eq]
  have hb : batchOf (sliceAt b h) = b := Fin.ext (by show (b.val * 16 + h.val) / 16 = b.val; have := h.isLt; omega)
  have hh : headOf (sliceAt b h) = h := Fin.ext (by show (b.val * 16 + h.val) % 16 = h.val; have := h.isLt; omega)
  rw [hb, hh]

/-- THE RUN, READ: every weakly fair execution of the kernel program ends with its result array at the shared
    function of the arguments, normalised after the weighted sum, and the arguments unchanged. -/
theorem run : θ_run defs (onTc (τ := τ) (main (F := Ideal))) ⟨m, fun _ => 0, ρ⟩ fun r => ∀ c : Dev nD,
      r.2.mem ((c.tc : Thread nD τ).loc main_v6) = outLate (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tile

end
-- ==== Proof.RefValue.lean ====
/-
  The reference program, read stage by stage at the ideal values, is attention over dequantised keys and values
  with every weight divided by its row sum before the weighted sum of the values is taken.

  Each stage is read at explicit coordinates (b, h, s, t) or (b, h, s, d). The keys and values are dequantised
  entry by entry: polar code times 1/8 plus residual code times the 0.01 word. The score is the contraction over
  the 64 channels of the scaled query against the dequantised key. The row maximum is a fold of max from minus
  infinity over the 2048 key positions; the program takes its maximum once more against minus infinity, which
  changes nothing. The shifted scores are exponentiated, the row is summed from zero, every exponential is divided
  by that sum, and the quotients are contracted over the key positions against the dequantised values.
-/
import proofs.«413395_j53171695125155_3_alg».proof.Proof.Gen.ReferenceIdeal.Read
import proofs.«413395_j53171695125155_3_alg».proof.Proof.AttnSpec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 x1 x2 x3 x4 : (⟨S2x16x2048x64, .f32⟩ : BufTy).Contents (Elt Ideal))

/-! ## The entrywise stages: dequantised keys and values, the scaled query -/

/-- The key stage is the dequantised key: polar code times 1/8 plus residual code times the 0.01 word. -/
theorem key_stage (i : S2x16x2048x64.Idx) :
    val_main_v4 (F := Ideal) x1 x2 i = Cert.Attn.deq x1 x2 i := by
  rw [val_main_v4_apply, val_main_v1_apply, val_main_v3_apply, val_main_v0_apply, val_main_v2_apply,
    val_main_cst_apply, val_main_cst_0_apply]
  simp only [Ideal.addf_def, Ideal.mulf_def, Ideal.ofBits_def]
  rfl

/-- The value stage is the dequantised value, by the same two products and one sum. -/
theorem value_stage (i : S2x16x2048x64.Idx) :
    val_main_v9 (F := Ideal) x3 x4 i = Cert.Attn.deq x3 x4 i := by
  rw [val_main_v9_apply, val_main_v6_apply, val_main_v8_apply, val_main_v5_apply, val_main_v7_apply,
    val_main_cst_1_apply, val_main_cst_2_apply]
  simp only [Ideal.addf_def, Ideal.mulf_def, Ideal.ofBits_def]
  rfl

/-- The query stage is the query entry times 1/8. -/
theorem query_stage (i : S2x16x2048x64.Idx) :
    val_main_v11 (F := Ideal) x0 i = x0 i * Cert.Attn.cP := by
  rw [val_main_v11_apply, val_main_v10_apply, val_main_cst_3_apply]
  simp only [Ideal.mulf_def, Ideal.ofBits_def]
  rfl

/-! ## The score: a contraction over the 64 channels -/

/-- At (b, h, s, t) the contraction reads the query at (b, h, s, k). -/
theorem lidx_score (b : Fin 2) (h : Fin 16) (s t : Fin 2048) (k : Fin 64) :
    lidx_main_v12 (ix4 b h s t) k = ix4 b h s k :=
  funext fun a => Fin.ext (by match a with | ⟨0, _⟩ => rfl | ⟨1, _⟩ => rfl | ⟨2, _⟩ => rfl | ⟨3, _⟩ => rfl)

/-- At (b, h, s, t) the contraction reads the key at (b, h, t, k). -/
theorem ridx_score (b : Fin 2) (h : Fin 16) (s t : Fin 2048) (k : Fin 64) :
    ridx_main_v12 (ix4 b h s t) k = ix4 b h t k :=
  funext fun a => Fin.ext (by match a with | ⟨0, _⟩ => rfl | ⟨1, _⟩ => rfl | ⟨2, _⟩ => rfl | ⟨3, _⟩ => rfl)

/-- The score stage at (b, h, s, t) is the score of query position s against key position t. -/
theorem score_stage (b : Fin 2) (h : Fin 16) (s t : Fin 2048) :
    val_main_v12 (F := Ideal) x0 x1 x2 (ix4 b h s t) = Cert.Attn.score x0 x1 x2 b h s t := by
  rw [val_main_v12_apply]
  unfold Cert.Attn.score
  refine Finset.sum_congr rfl fun k _ => ?_
  rw [lidx_score, ridx_score, query_stage, key_stage]

/-! ## The row maximum: a fold of max from minus infinity over the key positions -/

/-- The row index (b, h, s) with key position t put back on the last axis is (b, h, s, t). -/
theorem lift_row (hr : S2x16x2048x2048.Reduces [3] S2x16x2048) (b : Fin 2) (h : Fin 16) (s : Fin 2048)
    (t : Fin (S2x16x2048x2048.size 3)) :
    hr.lift (ix3 b h s) t = ix4 b h s (⟨t.val, t.isLt⟩ : Fin 2048) :=
  funext fun a => Fin.ext (by match a with | ⟨0, _⟩ => rfl | ⟨1, _⟩ => rfl | ⟨2, _⟩ => rfl | ⟨3, _⟩ => rfl)

/-- The maximum stage at (b, h, s) is the row's maximum, folded from minus infinity. -/
theorem max_stage (b : Fin 2) (h : Fin 16) (s : Fin 2048) :
    val_main_v13 (F := Ideal) x0 x1 x2 (ix3 b h s) = Cert.Attn.rowTop x0 x1 x2 b h s := by
  have hr : S2x16x2048x2048.Reduces [3] S2x16x2048 := by decide
  unfold val_main_v13
  rw [Host.reduce_eq_fold_single FloatOps.maximumf _ _ reducesTo_S2x16x2048x2048_S2x16x2048_d3 hr h_S_]
  have hf : (val_main_v12 (F := Ideal) x0 x1 x2 ∘ hr.lift (ix3 b h s))
      = fun t : Fin 2048 => Cert.Attn.score x0 x1 x2 b h s t :=
    funext fun t => by
      show val_main_v12 (F := Ideal) x0 x1 x2 (hr.lift (ix3 b h s) t) = _
      rw [lift_row hr b h s t, score_stage]
      rfl
  have hb : val_main_cst_4 (F := Ideal) (Shape.Idx.first h_S_) = (⊥ : EReal) := by
    rw [val_main_cst_4_apply, Ideal.ofBits_def, Cert.Attn.negInf_eq]
  rw [hb]
  unfold Cert.Attn.rowTop Cert.RowLaws.rowMax
  refine Eq.trans (congrArg (fun f => Finset.fold (FloatOps.maximumf : Ideal .f32 → Ideal .f32 → Ideal .f32)
    (⊥ : EReal) f (Finset.univ : Finset (Fin 2048))) hf) ?_
  rfl

/-- The program takes the maximum of minus infinity and the row maximum: the row maximum again. -/
theorem top_stage (b : Fin 2) (h : Fin 16) (s : Fin 2048) :
    val_main_v15 (F := Ideal) x0 x1 x2 (ix3 b h s) = Cert.Attn.rowTop x0 x1 x2 b h s := by
  rw [val_main_v15_apply, val_main_v14_apply, val_main_cst_5_apply, max_stage]
  simp only [Ideal.maximumf_def, Ideal.ofBits_def]
  rw [Cert.Attn.negInf_eq]
  exact max_eq_right bot_le

/-- The row maximum spread back over the key positions: at (b, h, s, t) it is the maximum of row (b, h, s). -/
theorem top_spread (b : Fin 2) (h : Fin 16) (s t : Fin 2048) :
    val_main_v17 (F := Ideal) x0 x1 x2 (ix4 b h s t) = Cert.Attn.rowTop x0 x1 x2 b h s := by
  have e : idx_main_v16 (idx_main_v17 (ix4 b h s t)) = ix3 b h s :=
    funext fun a => Fin.ext (by match a with | ⟨0, _⟩ => rfl | ⟨1, _⟩ => rfl | ⟨2, _⟩ => rfl)
  rw [val_main_v17_apply, val_main_v16_apply, e, top_stage]

/-! ## The weights, their row sum, and the quotients -/

/-- The exponential stage at (b, h, s, t) is the unnormalised weight. -/
theorem weight_stage (b : Fin 2) (h : Fin 16) (s t : Fin 2048) :
    val_main_v19 (F := Ideal) x0 x1 x2 (ix4 b h s t) = Cert.Attn.weight x0 x1 x2 b h s t := by
  rw [val_main_v19_apply, val_main_v18_apply, score_stage, top_spread]
  simp only [Ideal.hostUnary_exp_def, Ideal.subf_def]
  rfl

/-- The sum stage at (b, h, s), started from the zero word, is the sum of the row's weights. -/
theorem sum_stage (b : Fin 2) (h : Fin 16) (s : Fin 2048) :
    val_main_v20 (F := Ideal) x0 x1 x2 (ix3 b h s) = Cert.Attn.rowSum x0 x1 x2 b h s := by
  have e : ∀ t : Fin 2048, idx_main_v20 (ix3 b h s) t = ix4 b h s t := fun t =>
    funext fun a => Fin.ext (by match a with | ⟨0, _⟩ => rfl | ⟨1, _⟩ => rfl | ⟨2, _⟩ => rfl | ⟨3, _⟩ => rfl)
  rw [val_main_v20_apply, val_main_cst_6_apply, Ideal.ofBits_def, Ideal.ofBits_zero_f32, zero_add]
  unfold Cert.Attn.rowSum
  refine Finset.sum_congr rfl fun t _ => ?_
  rw [e, weight_stage]

/-- The row sum spread back over the key positions. -/
theorem sum_spread (b : Fin 2) (h : Fin 16) (s t : Fin 2048) :
    val_main_v22 (F := Ideal) x0 x1 x2 (ix4 b h s t) = Cert.Attn.rowSum x0 x1 x2 b h s := by
  have e : idx_main_v21 (idx_main_v22 (ix4 b h s t)) = ix3 b h s :=
    funext fun a => Fin.ext (by match a with | ⟨0, _⟩ => rfl | ⟨1, _⟩ => rfl | ⟨2, _⟩ => rfl)
  rw [val_main_v22_apply, val_main_v21_apply, e, sum_stage]

/-- The quotient stage at (b, h, s, t) is the weight divided by its row sum. -/
theorem quot_stage (b : Fin 2) (h : Fin 16) (s t : Fin 2048) :
    val_main_v23 (F := Ideal) x0 x1 x2 (ix4 b h s t)
      = Ideal.div (Cert.Attn.weight x0 x1 x2 b h s t) (Cert.Attn.rowSum x0 x1 x2 b h s) := by
  rw [val_main_v23_apply, weight_stage, sum_spread, Ideal.hostDivf_def]

/-! ## The result: the quotients contracted over the key positions against the values -/

/-- The result stage of the reference program is attention normalised before the weighted sum. -/
theorem ref_eq (x0 x1 x2 x3 x4 : (⟨Cert.ReferenceIdeal.S2x16x2048x64, .f32⟩ : BufTy).Contents (Elt Ideal)) :
    Cert.ReferenceIdeal.Read.val_main_v24 (F := Ideal) x0 x1 x2 x3 x4 = Cert.Attn.outEarly x0 x1 x2 x3 x4 := by
  funext i
  obtain ⟨b, h, s, d, rfl⟩ : ∃ (b : Fin 2) (h : Fin 16) (s : Fin 2048) (d : Fin 64), i = ix4 b h s d :=
    ⟨i 0, i 1, i 2, i 3, eq_ix4 i⟩
  have el : ∀ t : Fin 2048, lidx_main_v24 (ix4 b h s d) t = ix4 b h s t := fun t =>
    funext fun a => Fin.ext (by match a with | ⟨0, _⟩ => rfl | ⟨1, _⟩ => rfl | ⟨2, _⟩ => rfl | ⟨3, _⟩ => rfl)
  have er : ∀ t : Fin 2048, ridx_main_v24 (ix4 b h s d) t = ix4 b h t d := fun t =>
    funext fun a => Fin.ext (by match a with | ⟨0, _⟩ => rfl | ⟨1, _⟩ => rfl | ⟨2, _⟩ => rfl | ⟨3, _⟩ => rfl)
  have eo : Cert.Attn.outEarly x0 x1 x2 x3 x4 (ix4 b h s d)
      = ∑ t : Fin 2048, Ideal.div (Cert.Attn.weight x0 x1 x2 b h s t) (Cert.Attn.rowSum x0 x1 x2 b h s)
          * Cert.Attn.deq x3 x4 (ix4 b h t d) := rfl
  rw [val_main_v24_apply, eo]
  refine Finset.sum_congr rfl fun t _ => ?_
  rw [el, er, quot_stage, value_stage]

end Cert.ReferenceIdeal.RefValue

end
-- ==== Proof.AttnLaw.lean ====
/-
  On real inputs, dividing the finished weighted sum by the row sum equals dividing every weight first.

  Both scale words are real numbers (neither is an infinity or a non-number), so every dequantised entry is a
  real, every score is a finite sum of products of reals, and the maximum of a row of 2048 real scores, folded
  from minus infinity, is a real: it is below plus infinity because every score is, and above minus infinity
  because it is at least the first score. Every weight is then the exponential of a real, a positive real, and
  the row sum is a positive real `l`. Division by a nonzero real is the product with its reciprocal, so both
  arrangements are the coercion of a real expression, and in the reals
  `(∑ t, w t * v t) * (1 / l) = ∑ t, (w t * (1 / l)) * v t`.
-/
import proofs.«413395_j53171695125155_3_alg».proof.Proof.AttnSpec
import Mathlib.Data.EReal.Basic
import Mathlib.Data.EReal.Operations
import Mathlib.Data.Finset.Fold
import Mathlib.Algebra.BigOperators.Ring.Finset
import Mathlib.Algebra.Order.BigOperators.Group.Finset
import Mathlib.Analysis.Complex.Exponential

noncomputable section

namespace Cert.Attn

open Idealize.ShloMosaic Idealize.ShloMosaic.ValueIdx

/-! The auxiliary facts live in `Cert.Attn.Law`; the law itself is stated in `Cert.Attn`. -/
namespace Law

/-- An extended real that is neither infinity is the coercion of a real. -/
theorem real_of_ne {x : EReal} (ht : x ≠ ⊤) (hb : x ≠ ⊥) : ∃ r : ℝ, x = (r : EReal) :=
  ⟨x.toReal, (EReal.coe_toReal ht hb).symm⟩

/-- The word of 1/8 is a real. -/
theorem cP_real : ∃ r : ℝ, cP = (r : EReal) := by
  apply real_of_ne <;> simp [cP, Ideal.ofBits, Ideal.ieee, -EReal.coe_mul]

/-- The word nearest 0.01 is a real. -/
theorem cQ_real : ∃ r : ℝ, cQ = (r : EReal) := by
  apply real_of_ne <;> simp [cQ, Ideal.ofBits, Ideal.ieee, -EReal.coe_mul]

/-- A finite sum of reals is a real. -/
theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [Cert.RowLaws.coe_sum]; exact Finset.sum_congr rfl fun i _ => hg i⟩

/-- A dequantised entry of real codes is a real. -/
theorem deq_real (p r : Arr) (hp : ∀ i, ∃ x : ℝ, p i = (x : EReal)) (hr : ∀ i, ∃ x : ℝ, r i = (x : EReal))
    (i : Sx.Idx) : ∃ x : ℝ, deq p r i = (x : EReal) := by
  obtain ⟨a, ha⟩ := hp i
  obtain ⟨b, hb⟩ := hr i
  obtain ⟨c, hc⟩ := cP_real
  obtain ⟨d, hd⟩ := cQ_real
  exact ⟨a * c + b * d, by rw [deq, ha, hb, hc, hd, EReal.coe_add, EReal.coe_mul, EReal.coe_mul]⟩

/-- A score of real inputs is a real. -/
theorem score_real (q kp kq : Arr) (hq : ∀ i, ∃ r : ℝ, q i = (r : EReal))
    (hkp : ∀ i, ∃ r : ℝ, kp i = (r : EReal)) (hkq : ∀ i, ∃ r : ℝ, kq i = (r : EReal))
    (b : Fin 2) (h : Fin 16) (s t : Fin 2048) : ∃ r : ℝ, score q kp kq b h s t = (r : EReal) := by
  apply sum_real
  intro k
  obtain ⟨a, ha⟩ := hq (ix4 b h s k)
  obtain ⟨c, hc⟩ := cP_real
  obtain ⟨d, hd⟩ := deq_real kp kq hkp hkq (ix4 b h t k)
  exact ⟨a * c * d, by rw [ha, hc, hd, EReal.coe_mul, EReal.coe_mul]⟩

/-- The maximum of a nonempty row of reals, folded from minus infinity, is a real. -/
theorem rowMax_real {n : ℕ} (k0 : Fin n) (s : Fin n → EReal) (hs : ∀ k, ∃ r : ℝ, s k = (r : EReal)) :
    ∃ r : ℝ, Cert.RowLaws.rowMax ⊥ s = (r : EReal) := by
  apply real_of_ne
  · refine Cert.RowLaws.rowMax_ne_top ⊥ s bot_ne_top fun k => ?_
    obtain ⟨r, hr⟩ := hs k
    rw [hr]; exact EReal.coe_ne_top r
  · obtain ⟨r, hr⟩ := hs k0
    have hle : s k0 ≤ Cert.RowLaws.rowMax ⊥ s :=
      (Finset.le_fold_max (s k0)).mpr (Or.inr ⟨k0, Finset.mem_univ k0, le_rfl⟩)
    intro hbot
    rw [hbot, hr] at hle
    exact absurd (le_bot_iff.mp hle) (EReal.coe_ne_bot r)

/-- The weights of a row of real inputs are positive reals. -/
theorem weight_real (q kp kq : Arr) (hq : ∀ i, ∃ r : ℝ, q i = (r : EReal))
    (hkp : ∀ i, ∃ r : ℝ, kp i = (r : EReal)) (hkq : ∀ i, ∃ r : ℝ, kq i = (r : EReal))
    (b : Fin 2) (h : Fin 16) (s : Fin 2048) :
    ∃ w : Fin 2048 → ℝ, (∀ t, 0 < w t) ∧ ∀ t, weight q kp kq b h s t = (w t : EReal) := by
  choose a ha using fun t => score_real q kp kq hq hkp hkq b h s t
  obtain ⟨m, hm⟩ : ∃ m : ℝ, rowTop q kp kq b h s = (m : EReal) :=
    rowMax_real (0 : Fin 2048) _ fun t => ⟨a t, ha t⟩
  refine ⟨fun t => Real.exp (a t - m), fun t => Real.exp_pos _, fun t => ?_⟩
  rw [weight, ha t, hm, ← EReal.coe_sub, Ideal.exp_coe]

/-- The identity on coerced reals: the sum of products divided by a nonzero real is the sum of the products
    with each left factor divided first. -/
theorem div_sum_coe {n : ℕ} (w v : Fin n → ℝ) (l : ℝ) (hl : l ≠ 0) :
    Ideal.div (∑ t, (w t : EReal) * (v t : EReal)) (l : EReal)
      = ∑ t, Ideal.div (w t : EReal) (l : EReal) * (v t : EReal) := by
  rw [Ideal.div_coe hl]
  have hterm : ∀ t, Ideal.div (w t : EReal) (l : EReal) * (v t : EReal) = ((w t * (1 / l) * v t : ℝ) : EReal) :=
    fun t => by rw [Ideal.div_coe hl, EReal.coe_mul, EReal.coe_mul]
  have hprod : ∀ t, (w t : EReal) * (v t : EReal) = ((w t * v t : ℝ) : EReal) :=
    fun t => (EReal.coe_mul _ _).symm
  rw [Finset.sum_congr rfl fun t _ => hterm t, Finset.sum_congr rfl fun t _ => hprod t,
    ← Cert.RowLaws.coe_sum, ← Cert.RowLaws.coe_sum, ← EReal.coe_mul, Finset.sum_mul]
  congr 1
  exact Finset.sum_congr rfl fun t _ => by ring

end Law

open Law in
/-- Normalising last equals normalising first, on real inputs. -/
theorem outLate_eq_outEarly (q kp kq vp vq : Arr)
    (hq : ∀ i, ∃ r : ℝ, q i = (r : EReal)) (hkp : ∀ i, ∃ r : ℝ, kp i = (r : EReal)) (hkq : ∀ i, ∃ r : ℝ, kq i = (r : EReal))
    (hvp : ∀ i, ∃ r : ℝ, vp i = (r : EReal)) (hvq : ∀ i, ∃ r : ℝ, vq i = (r : EReal)) :
    outLate q kp kq vp vq = outEarly q kp kq vp vq := by
  funext i
  obtain ⟨w, hpos, hw⟩ := weight_real q kp kq hq hkp hkq (i 0) (i 1) (i 2)
  choose v hv using fun t : Fin 2048 => deq_real vp vq hvp hvq (ix4 (i 0) (i 1) t (i 3))
  have hl : rowSum q kp kq (i 0) (i 1) (i 2) = ((∑ t, w t : ℝ) : EReal) := by
    rw [Cert.RowLaws.coe_sum]
    exact Finset.sum_congr rfl fun t _ => hw t
  have hne : (∑ t, w t) ≠ 0 :=
    (Finset.sum_pos (fun t _ => hpos t) ⟨(0 : Fin 2048), Finset.mem_univ _⟩).ne'
  rw [outLate, outEarly, hl, Finset.sum_congr rfl fun t _ => by rw [hw t, hv t],
    div_sum_coe w v _ hne]
  exact Finset.sum_congr rfl fun t _ => by rw [hw t, hv t]

end Cert.Attn

end
-- ==== Proof.FiniteInputs.lean ====
/-
  The precondition "every entry of every input is finite", read back: all five arrays have real entries.

  The printed predicate compares the absolute value of each entry with the word of plus infinity, reduces each
  array of comparison bits by `and` over all four axes, and conjoins the five results. If the conjunction is 1,
  each reduction is 1, so each comparison bit is 1: the absolute value `max x (-x)` of each entry is below plus
  infinity. An extended real with that property is neither infinity (at minus infinity the negation is plus
  infinity), so it is a real.
-/
import proofs.«413395_j53171695125155_3_alg».proof.Pre_finite_inputs
import Idealize.ShloMosaic.Lib.ReduceAll
import Idealize.ShloMosaic.Lib.ValueIdx
import Idealize.ShloMosaic.PureOps.Ideal
import Mathlib.Data.EReal.Basic
import Mathlib.Data.EReal.Operations

noncomputable section

namespace Cert.Attn

open Idealize.ShloMosaic Idealize.ShloMosaic.ValueIdx

/-! The auxiliary facts live in `Cert.Attn.Finite`; the read-back itself is stated in `Cert.Attn`. -/
namespace Finite

/-- The word 0x7F800000 is plus infinity. -/
theorem posInf_eq : Ideal.ofBits .f32 0x7F800000#32 = (⊤ : EReal) := by
  simp [Ideal.ofBits, Ideal.ieee]

/-- An extended real whose absolute value compares below the word of plus infinity is a real. -/
theorem real_of_abs_lt_inf (x : EReal)
    (h : Ideal.cmp .olt (max x (-x)) (Ideal.ofBits .f32 0x7F800000#32) = 1#1) : ∃ r : ℝ, x = (r : EReal) := by
  rw [posInf_eq] at h
  have hlt : max x (-x) < ⊤ := by
    by_contra hn
    simp [Ideal.cmp, hn] at h
  induction x using EReal.rec with
  | bot => simp at hlt
  | coe r => exact ⟨r, rfl⟩
  | top => simp at hlt

/-- One array: if the `and` over all entries of "absolute value below plus infinity" is 1, every entry is a real. -/
theorem real_of_all [Cert.Pre_finite_inputs.Facts] (x : FVec Ideal Cert.Pre_finite_inputs.S2x16x2048x64 .f32)
    (init : IVec Cert.Pre_finite_inputs.S_ 1)
    (h : Host.reduce IntOp.andi
        (cmpf .olt (Host.absf x)
          (broadcastInDim Cert.Pre_finite_inputs.S2x16x2048x64 ![]
            Cert.Pre_finite_inputs.Facts.bcast_S_S2x16x2048x64
            (constant Cert.Pre_finite_inputs.S_ .f32 0x7F800000#32)))
        init Cert.Pre_finite_inputs.Facts.reducesTo_S2x16x2048x64_S_d0_1_2_3 Cert.Pre_finite_inputs.Facts.h_S_ ix0 = 1#1)
    (i : Cert.Pre_finite_inputs.S2x16x2048x64.Idx) : ∃ r : ℝ, x i = (r : EReal) :=
  -- the result shape of a reduction over all axes has one index
  haveI : Subsingleton Cert.Pre_finite_inputs.S_.Idx := ⟨fun a b => funext fun d => d.elim0⟩
  real_of_abs_lt_inf (x i) (Host.reduce_andi_all _ _ _ _ _ h i)

end Finite

open Finite in
/-- The printed precondition gives real entries in all five arrays. -/
theorem real_of_finite [Cert.Pre_finite_inputs.Facts] (x0 x1 x2 x3 x4 : FVec Ideal Cert.Pre_finite_inputs.S2x16x2048x64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all x0 _ h0', real_of_all x1 _ h1, real_of_all x2 _ h2, real_of_all x3 _ h3, real_of_all x4 _ h4⟩

end Cert.Attn

end
-- ==== Proof.lean ====
/-
  The attention kernel over dequantised keys and values against its jnp reference, over the extended reals.

  Both programs dequantise keys and values the same way (polar code times 1/8 plus residual code times the 0.01
  word), score every query position against every key position of its (batch, head) slice with the query scaled
  by 1/8, shift a row of scores by its maximum, and exponentiate. The kernel takes the weighted sum of the values
  and divides it by the row sum; the reference divides every weight by the row sum and then takes the weighted
  sum. On finite inputs every score is a real number, the row sum is a positive real number, and a division by a
  nonzero real distributes over a finite sum of reals, so the two results agree entry by entry.

  The kernel's grid visits the two 1024-row query tiles of a slice in turn and keeps the dequantised keys
  (transposed) and values of the slice in two scratch buffers, built at the first tile and read again at the
  second; since the code blocks of a slice are the same at both tiles, every tile is computed against the caches
  of its own slice. The three frames: the two kernel programs by the generated frame, the reference by its run.
  The idealisation rewrote nothing.
-/
import proofs.«413395_j53171695125155_3_alg».proof.Defs
import proofs.«413395_j53171695125155_3_alg».proof.Proof.Gen.Kernel
import proofs.«413395_j53171695125155_3_alg».proof.Proof.Gen.Kernel.Skeleton
import proofs.«413395_j53171695125155_3_alg».proof.Proof.Gen.Kernel.Launch
import proofs.«413395_j53171695125155_3_alg».proof.Proof.Gen.Kernel.Points
import proofs.«413395_j53171695125155_3_alg».proof.Proof.Gen.Kernel.Frame
import proofs.«413395_j53171695125155_3_alg».proof.Proof.Gen.KernelIdeal
import proofs.«413395_j53171695125155_3_alg».proof.Proof.Gen.KernelIdeal.Skeleton
import proofs.«413395_j53171695125155_3_alg».proof.Proof.Gen.KernelIdeal.Launch
import proofs.«413395_j53171695125155_3_alg».proof.Proof.Gen.KernelIdeal.Points
import proofs.«413395_j53171695125155_3_alg».proof.Proof.Gen.KernelIdeal.Frame
import proofs.«413395_j53171695125155_3_alg».proof.Proof.Gen.ReferenceIdeal
import proofs.«413395_j53171695125155_3_alg».proof.Proof.Gen.Pre_finite_inputs
import proofs.«413395_j53171695125155_3_alg».proof.Proof.Gen.ReferenceIdeal.Run
import proofs.«413395_j53171695125155_3_alg».proof.Proof.Gen.ReferenceIdeal.Read
import proofs.«413395_j53171695125155_3_alg».proof.Proof.KernelResult
import proofs.«413395_j53171695125155_3_alg».proof.Proof.RefValue
import proofs.«413395_j53171695125155_3_alg».proof.Proof.AttnLaw
import proofs.«413395_j53171695125155_3_alg».proof.Proof.FiniteInputs
import Idealize.ShloMosaic.Adequacy
import Idealize.ShloMosaic.Init

noncomputable section

namespace Cert.Proof

open Idealize.ShloMosaic Idealize.SL.Sem

/-- The word-level kernel runs, faults nowhere, and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Normalising after the weighted sum (the kernel) and before it (the reference) give one array on finite inputs. -/
theorem algebraic : Cert.algebraic_KernelIdeal_ReferenceIdeal := by
  intro m ρ m' ρ' hpre hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.Attn.real_of_finite _ _ _ _ _ (hpre c)
  rw [Cert.ReferenceIdeal.Read.val_main_v24_eq, Cert.ReferenceIdeal.RefValue.ref_eq,
    (hagree c).1, (hagree c).2.1, (hagree c).2.2.1, (hagree c).2.2.2.1, (hagree c).2.2.2.2]
  exact (Cert.Attn.outLate_eq_outEarly _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
